-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S512x64 : Shape := ⟨2, ![512, 64]⟩
abbrev S512 : Shape := ⟨1, ![512]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S2048x64 .f32) (main_arg1 : FVec F S512x64 .f32) (main_arg2 : FVec F S512x64 .f32) (main_arg3 : FVec F S512 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S2048x64 : Shape := ⟨2, ![2048, 64]⟩
abbrev S512x64 : Shape := ⟨2, ![512, 64]⟩
abbrev S512 : Shape := ⟨1, ![512]⟩
abbrev S1x512 : Shape := ⟨2, ![1, 512]⟩
abbrev S2048x512 : Shape := ⟨2, ![2048, 512]⟩
abbrev S256x64 : Shape := ⟨2, ![256, 64]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S2048x64, .f32⟩
  | .hbm, ⟨1, _⟩ => ⟨S512x64, .f32⟩
  | .hbm, ⟨2, _⟩ => ⟨S512x64, .f32⟩
  | .hbm, ⟨3, _⟩ => ⟨S512, .f32⟩
  | .hbm, ⟨4, _⟩ => ⟨S1x512, .f32⟩
  | .hbm, ⟨5, _⟩ => ⟨S2048x512, .f32⟩
  | .local _ .vmem, ⟨0, _⟩ => ⟨S256x64, .f32⟩
  | .local _ .vmem, ⟨1, _⟩ => ⟨S256x64, .f32⟩
  | .local _ .vmem, ⟨2, _⟩ => ⟨S512x64, .f32⟩
  | .local _ .vmem, ⟨3, _⟩ => ⟨S512x64, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512_S1x512 : S512.ShapeCasts S1x512
  inb_S256x64_S256x64_0_0 : ∀ a, (![0, 0] : Fin 2 → Nat) a + S256x64.size a ≤ S256x64.size a
  h_S256x64 : 0 < S256x64.numel
  inb_S512x64_S512x64_0_0 : ∀ a, (![0, 0] : Fin 2 → Nat) a + S512x64.size a ≤ S512x64.size a
  h_S512x64 : 0 < S512x64.numel
  reduces_S512x64_S512 : S512x64.Reduces [1] S512
  reduces_S256x64_S256 : S256x64.Reduces [1] S256
  shapeCasts_S256_S256x1 : S256.ShapeCasts S256x1
  broadcasts_S1x512_S256x512 : S1x512.Broadcasts S256x512
  broadcasts_S256x1_S256x512 : S256x1.Broadcasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S256x512_S256x512_0_0 : ∀ a, (![0, 0] : Fin 2 → Nat) a + S256x512.size a ≤ S256x512.size a
  h_S256x512 : 0 < S256x512.numel
  dot_S256x64_S512x64_S256x512_1_1_0_0_n_n_wf : DotDims.WF S256x64 S512x64 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S2048x64.size a
  hwx0_0 : ∀ i : grid0.Coords, EltTy.bits .f32 = 32 ∨ (Rect.block (s := S2048x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S2048x512.size a
  hwx0_4 : ∀ i : grid0.Coords, EltTy.bits .f32 = 32 ∨ (Rect.block (s := S2048x512) S256x512.size (cc0_transform_4 i) (hinb0_4 i)).WholeWords (EltTy.packing .f32)

variable [Facts₀]

def dot_S256x64_S512x64_S256x512_1_1_0_0_n_n : DotDims S256x64 S512x64 S256x512 where
  lhsContracting := [1]
  rhsContracting := [1]
  lhsNonContracting := [0]
  rhsNonContracting := [0]
  lhsBatch := []
  rhsBatch := []
  wf := dot_S256x64_S512x64_S256x512_1_1_0_0_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x64 : Shape := ⟨2, ![2048, 64]⟩
abbrev S512x64 : Shape := ⟨2, ![512, 64]⟩
abbrev S512 : Shape := ⟨1, ![512]⟩
abbrev S_ : Shape := ⟨0, ![]⟩
abbrev S2048x512 : Shape := ⟨2, ![2048, 512]⟩
abbrev S1x512 : Shape := ⟨2, ![1, 512]⟩
abbrev S2048x512x1 : Shape := ⟨3, ![2048, 512, 1]⟩
abbrev S1x512x64 : Shape := ⟨3, ![1, 512, 64]⟩
abbrev S2048x512x64 : Shape := ⟨3, ![2048, 512, 64]⟩
abbrev S2048x1x64 : Shape := ⟨3, ![2048, 1, 64]⟩

abbrev nBuf : Space → Nat
  | .hbm => 79
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S512x64, .f32⟩
  | .hbm, ⟨2, _⟩ => ⟨S512x64, .f32⟩
  | .hbm, ⟨3, _⟩ => ⟨S512, .f32⟩
  | .hbm, ⟨4, _⟩ => ⟨S512x64, .f32⟩
  | .hbm, ⟨5, _⟩ => ⟨S512x64, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S2048x512, .f32⟩
  | .hbm, ⟨10, _⟩ => ⟨S512x64, .f32⟩
  | .hbm, ⟨11, _⟩ => ⟨S_, .f32⟩
  | .hbm, ⟨12, _⟩ => ⟨S512, .f32⟩
  | .hbm, ⟨13, _⟩ => ⟨S1x512, .f32⟩
  | .hbm, ⟨14, _⟩ => ⟨S2048x512, .f32⟩
  | .hbm, ⟨15, _⟩ => ⟨S2048x512, .f32⟩
  | .hbm, ⟨16, _⟩ => ⟨S1x512, .f32⟩
  | .hbm, ⟨17, _⟩ => ⟨S2048x512, .f32⟩
  | .hbm, ⟨18, _⟩ => ⟨S2048x512, .f32⟩
  | .hbm, ⟨19, _⟩ => ⟨S2048x512x1, .f32⟩
  | .hbm, ⟨20, _⟩ => ⟨S1x512x64, .f32⟩
  | .hbm, ⟨21, _⟩ => ⟨S2048x512x64, .f32⟩
  | .hbm, ⟨22, _⟩ => ⟨S2048x512x64, .f32⟩
  | .hbm, ⟨23, _⟩ => ⟨S2048x512x64, .f32⟩
  | .hbm, ⟨24, _⟩ => ⟨S1x512x64, .f32⟩
  | .hbm, ⟨25, _⟩ => ⟨S2048x512x64, .f32⟩
  | .hbm, ⟨26, _⟩ => ⟨S2048x512x64, .f32⟩
  | .hbm, ⟨27, _⟩ => ⟨S_, .f32⟩
  | .hbm, ⟨28, _⟩ => ⟨S2048x512, .f32⟩
  | .hbm, ⟨29, _⟩ => ⟨S2048x512x64, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S1x512, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .i1⟩
  | .hbm, ⟨39, _⟩ => ⟨S_, .f32⟩
  | .hbm, ⟨40, _⟩ => ⟨S2048x512, .f32⟩
  | .hbm, ⟨41, _⟩ => ⟨S2048x512, .i1⟩
  | .hbm, ⟨42, _⟩ => ⟨S_, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S_, .f32⟩
  | .hbm, ⟨47, _⟩ => ⟨S_, .f32⟩
  | .hbm, ⟨48, _⟩ => ⟨S2048x512, .f32⟩
  | .hbm, ⟨49, _⟩ => ⟨S2048x512, .f32⟩
  | .hbm, ⟨50, _⟩ => ⟨S2048x512x1, .f32⟩
  | .hbm, ⟨51, _⟩ => ⟨S1x512x64, .f32⟩
  | .hbm, ⟨52, _⟩ => ⟨S2048x512x64, .f32⟩
  | .hbm, ⟨53, _⟩ => ⟨S2048x512x64, .f32⟩
  | .hbm, ⟨54, _⟩ => ⟨S2048x512x64, .f32⟩
  | .hbm, ⟨55, _⟩ => ⟨S_, .f32⟩
  | .hbm, ⟨56, _⟩ => ⟨S2048x512, .f32⟩
  | .hbm, ⟨57, _⟩ => ⟨S2048x512, .f32⟩
  | .hbm, ⟨58, _⟩ => ⟨S2048x512x1, .f32⟩
  | .hbm, ⟨59, _⟩ => ⟨S1x512x64, .f32⟩
  | .hbm, ⟨60, _⟩ => ⟨S2048x512x64, .f32⟩
  | .hbm, ⟨61, _⟩ => ⟨S2048x512x64, .f32⟩
  | .hbm, ⟨62, _⟩ => ⟨S2048x512x64, .f32⟩
  | .hbm, ⟨63, _⟩ => ⟨S2048x512x64, .f32⟩
  | .hbm, ⟨64, _⟩ => ⟨S2048x1x64, .f32⟩
  | .hbm, ⟨65, _⟩ => ⟨S2048x512x64, .f32⟩
  | .hbm, ⟨66, _⟩ => ⟨S2048x512x64, .f32⟩
  | .hbm, ⟨67, _⟩ => ⟨S2048x512x64, .f32⟩
  | .hbm, ⟨68, _⟩ => ⟨S_, .f32⟩
  | .hbm, ⟨69, _⟩ => ⟨S2048x512, .f32⟩
  | .hbm, ⟨70, _⟩ => ⟨S2048x512, .f32⟩
  | .hbm, ⟨71, _⟩ => ⟨S512, .f32⟩
  | .hbm, ⟨72, _⟩ => ⟨S_, .f32⟩
  | .hbm, ⟨73, _⟩ => ⟨S512, .f32⟩
  | .hbm, ⟨74, _⟩ => ⟨S512, .f32⟩
  | .hbm, ⟨75, _⟩ => ⟨S1x512, .f32⟩
  | .hbm, ⟨76, _⟩ => ⟨S2048x512, .f32⟩
  | .hbm, ⟨77, _⟩ => ⟨S2048x512, .f32⟩
  | .hbm, ⟨78, _⟩ => ⟨S2048x512, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_call2_v0 : Ref sig .tc := ⟨.hbm, 43, rfl⟩
abbrev main_call2_v1 : Ref sig .tc := ⟨.hbm, 44, rfl⟩
abbrev main_v28 : Ref sig .tc := ⟨.hbm, 45, rfl⟩
abbrev main_cst_4 : Ref sig .tc := ⟨.hbm, 46, rfl⟩
abbrev main_call3_v0 : Ref sig .tc := ⟨.hbm, 47, rfl⟩
abbrev main_call3_v1 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  reducesTo_S512x64_S512_d1 : S512x64.ReducesTo [1] S512
  h_S_ : 0 < S_.numel
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S2048x512_S2048x512x1_0_1 : S2048x512.BroadcastsInDim S2048x512x1 (![0, 1] : Fin 2 → Fin S2048x512x1.rank)
  bcast_S512x64_S1x512x64_1_2 : S512x64.BroadcastsInDim S1x512x64 (![1, 2] : Fin 2 → Fin S1x512x64.rank)
  bcast_S2048x512x1_S2048x512x64_0_1_2 : S2048x512x1.BroadcastsInDim S2048x512x64 (![0, 1, 2] : Fin 3 → Fin S2048x512x64.rank)
  bcast_S1x512x64_S2048x512x64_0_1_2 : S1x512x64.BroadcastsInDim S2048x512x64 (![0, 1, 2] : Fin 3 → Fin S2048x512x64.rank)
  reducesTo_S2048x512x64_S2048x512_d2 : S2048x512x64.ReducesTo [2] S2048x512
  bcast_S_S2048x512 : S_.BroadcastsInDim S2048x512 (![] : Fin 0 → Fin S2048x512.rank)
  bcast_S2048x64_S2048x1x64_0_2 : S2048x64.BroadcastsInDim S2048x1x64 (![0, 2] : Fin 2 → Fin S2048x1x64.rank)
  bcast_S2048x1x64_S2048x512x64_0_1_2 : S2048x1x64.BroadcastsInDim S2048x512x64 (![0, 1, 2] : Fin 3 → Fin S2048x512x64.rank)
  bcast_S_S512 : S_.BroadcastsInDim S512 (![] : Fin 0 → Fin S512.rank)
  dot_S2048x64_S512x64_S2048x512_1_1_0_0_n_n_wf : DotDims.WF S2048x64 S512x64 S2048x512 [1] [1] [0] [0] [] []

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf

class Facts : Prop extends Facts₀ where

variable [Facts]
-- ==== Proof.Elem.lean ====
/-
  One element of the result, as both programs compute it on the extended reals, from one row `a` of `x`
  (64 entries), the matching rows `p` of `q1` and `q` of `q2`, and one entry `ρ` of `r`.

  Both programs compute `exp (-‖a - c‖² / (64 · ρ²))`, where `c = q - l · (q - p)` is a point of the segment
  from `q` towards `p` and the weight `l` is chosen from `s = ⟨a, q - p⟩ - ⟨p, q - p⟩` and `‖q - p‖`:
  `l = 1` if `s < 0`, `l = |s|` if `0 ≤ s` and `|s| < ‖q - p‖`, `l = 0` otherwise.
  * `ker` takes `l` from `s` and `‖q - p‖` directly and expands the square:
    `‖a - c‖² = (‖a‖² - 2⟨a, q⟩ + ‖q‖²) + 2 l (⟨a, q - p⟩ - ⟨q, q - p⟩) + l² ‖q - p‖²`.
  * `ref` first forms the vector `(s / ‖q - p‖) · (q - p)`, takes `l` from its inner product with `q - p`
    and from its norm, and sums `(a - (l p + (1 - l) q))²` coordinate by coordinate.
  The float literals stay as their words: `0x00000000` is 0, `0x3F800000` is 1, `0x40000000` is 2,
  `0x42800000` is 64.
-/
import Idealize.ShloMosaic.PureOps.Ideal
import Idealize.ShloMosaic.Lib.ValueIdx

noncomputable section

open scoped BigOperators

namespace Cert.Elem

open Idealize.ShloMosaic Idealize.ShloMosaic.ValueIdx

/-- The inner product of two rows. -/
def dot (u v : Fin 64 → EReal) : EReal := ∑ k, u k * v k

/-- The direction of the segment: `q - p`, coordinate by coordinate. -/
def dif (p q : Fin 64 → EReal) : Fin 64 → EReal := fun k => q k - p k

/-- The weight from the projection coefficient `s` and the segment's length `n`:
    1 below zero, `|s|` when that is below `n`, else 0. -/
def weight (s n : EReal) : EReal :=
  Scalar.select (Ideal.cmp .olt s (Ideal.ofBits .f32 0x00000000#32)) (Ideal.ofBits .f32 0x3F800000#32)
    (Scalar.select (Ideal.cmp .olt (max s (-s)) n) (max s (-s)) (Ideal.ofBits .f32 0x00000000#32))

/-- The kernel's weight for the rows `a`, `p`, `q`. -/
def kerW (a p q : Fin 64 → EReal) : EReal :=
  weight (dot a (dif p q) - dot p (dif p q)) (Ideal.sqrt (dot (dif p q) (dif p q)))

/-- The kernel's element: the squared distance expanded into inner products. -/
def ker (a p q : Fin 64 → EReal) (ρ : EReal) : EReal :=
  Ideal.exp (Ideal.div
    (Ideal.ofBits .f32 0x00000000#32
      - (((dot a a - Ideal.ofBits .f32 0x40000000#32 * dot a q + dot q q)
          + Ideal.ofBits .f32 0x40000000#32 * kerW a p q * (dot a (dif p q) - dot q (dif p q)))
         + kerW a p q * kerW a p q * dot (dif p q) (dif p q)))
    (Ideal.ofBits .f32 0x42800000#32 * (ρ * ρ)))

/-- The reference's projection vector `(s / ‖q - p‖) · (q - p)`. -/
def refVec (a p q : Fin 64 → EReal) : Fin 64 → EReal := fun k =>
  Ideal.div (dot a (dif p q) - (Ideal.ofBits .f32 0x00000000#32 + dot p (dif p q)))
      (Ideal.sqrt (Ideal.ofBits .f32 0x00000000#32 + dot (dif p q) (dif p q)))
    * dif p q k

/-- The norm of the reference's projection vector. -/
def refNorm (a p q : Fin 64 → EReal) : EReal :=
  Ideal.sqrt (Ideal.ofBits .f32 0x00000000#32 + dot (refVec a p q) (refVec a p q))

/-- The reference's weight: 1 when the projection vector points against `q - p`; its norm when that is below
    the segment's length; else 0. -/
def refW (a p q : Fin 64 → EReal) : EReal :=
  Scalar.select
    (Ideal.cmp .olt (Ideal.ofBits .f32 0x00000000#32 + dot (refVec a p q) (dif p q)) (Ideal.ofBits .f32 0x00000000#32))
    (Ideal.ofBits .f32 0x3F800000#32)
    (Scalar.select
      (Ideal.cmp .olt
        (Ideal.div (refNorm a p q) (Ideal.sqrt (Ideal.ofBits .f32 0x00000000#32 + dot (dif p q) (dif p q))))
        (Ideal.ofBits .f32 0x3F800000#32))
      (refNorm a p q) (Ideal.ofBits .f32 0x00000000#32))

/-- The reference's residual `a - (l p + (1 - l) q)`, coordinate by coordinate. -/
def refRes (a p q : Fin 64 → EReal) : Fin 64 → EReal := fun k =>
  a k - (refW a p q * p k + (Ideal.ofBits .f32 0x3F800000#32 - refW a p q) * q k)

/-- The reference's element: the residual's squares summed. -/
def ref (a p q : Fin 64 → EReal) (ρ : EReal) : EReal :=
  Ideal.exp (Ideal.div
    (-(Ideal.ofBits .f32 0x00000000#32 + dot (refRes a p q) (refRes a p q)))
    (Ideal.ofBits .f32 0x42800000#32 * (ρ * ρ)))

/-- The whole result array as one function of the four argument arrays: entry `(b, u)` is the kernel's element of
    row `b` of `x`, rows `u` of `q1` and `q2`, and entry `u` of `r`. -/
def G (x : (⟨2, ![2048, 64]⟩ : Shape).Idx → EReal) (q1 q2 : (⟨2, ![512, 64]⟩ : Shape).Idx → EReal)
    (r : (⟨1, ![512]⟩ : Shape).Idx → EReal) : (⟨2, ![2048, 512]⟩ : Shape).Idx → EReal :=
  fun i => ker (fun k => x (ix2 (i 0) k)) (fun k => q1 (ix2 (i 1) k)) (fun k => q2 (ix2 (i 1) k)) (r (ix1 (i 1)))

end Cert.Elem

end
-- ==== Proof.ElemLaw.lean ====
/-
  On real rows the reference's element is the kernel's.
-/
import proofs.«108052_j62148176773493_1_alg».proof.Proof.Elem
import Idealize.ShloMosaic.PureOps.Ideal.Laws

noncomputable section

open scoped BigOperators

namespace Cert.Elem

open Idealize.ShloMosaic

/-- The word of zero is the real 0. -/
theorem lit_zero : Ideal.ofBits .f32 0x00000000#32 = ((0 : ℝ) : EReal) := by
  rw [Ideal.ofBits_zero_f32]; rfl

/-- The word of one is the real 1. -/
theorem lit_one : Ideal.ofBits .f32 0x3F800000#32 = ((1 : ℝ) : EReal) := by
  simp [Ideal.ofBits, Ideal.ieee, -EReal.coe_mul]; norm_num

/-- The word of two is the real 2. -/
theorem lit_two : Ideal.ofBits .f32 0x40000000#32 = ((2 : ℝ) : EReal) := by
  simp [Ideal.ofBits, Ideal.ieee, -EReal.coe_mul]; norm_num

/-- The coercion of a finite sum of reals is the sum of the coercions. -/
theorem coe_sum {ι : Type} (t : Finset ι) (f : ι → ℝ) :
    (∑ k ∈ t, ((f k : ℝ) : EReal)) = ((∑ k ∈ t, f k : ℝ) : EReal) := by
  classical
  induction t using Finset.induction_on with
  | empty => simp
  | insert i t hi ih => rw [Finset.sum_insert hi, Finset.sum_insert hi, ih, EReal.coe_add]

/-- The real direction `q - p`. -/
def dR (p q : Fin 64 → ℝ) : Fin 64 → ℝ := fun k => q k - p k

/-- The direction of real rows is the coerced real direction. -/
theorem dif_coe (p q : Fin 64 → ℝ) :
    dif (fun k => ((p k : ℝ) : EReal)) (fun k => ((q k : ℝ) : EReal))
      = fun k => ((dR p q k : ℝ) : EReal) := by
  funext k; simp [dif, dR, EReal.coe_sub]

/-- The inner product of real rows is the coerced real inner product. -/
theorem dot_coe (u v : Fin 64 → ℝ) :
    dot (fun k => ((u k : ℝ) : EReal)) (fun k => ((v k : ℝ) : EReal))
      = ((∑ k, u k * v k : ℝ) : EReal) := by
  simp only [dot, ← EReal.coe_mul]; exact coe_sum _ _

/-- The real weight: 1 below zero, `|s|` when that is below `n`, else 0. -/
def wt (s n : ℝ) : ℝ := if s < 0 then 1 else if |s| < n then |s| else 0

/-- On reals the weight is the coerced real weight. -/
theorem weight_coe (s n : ℝ) : weight (s : EReal) (n : EReal) = ((wt s n : ℝ) : EReal) := by
  have hmax : max (s : EReal) (-(s : EReal)) = ((|s| : ℝ) : EReal) := by
    rw [← EReal.coe_neg, abs_eq_max_neg]
    exact (EReal.coe_strictMono.monotone.map_max).symm
  unfold weight wt
  rw [hmax, lit_zero, lit_one]
  simp only [Scalar.select, Ideal.cmp, EReal.coe_lt_coe_iff]
  by_cases h1 : s < 0
  · simp [h1]
  · by_cases h2 : |s| < n
    · simp [h1, h2]
    · simp [h1, h2]

/-- The real squared length `‖q - p‖²`. -/
def DR (p q : Fin 64 → ℝ) : ℝ := ∑ k, dR p q k * dR p q k

/-- The real projection coefficient `⟨a, q - p⟩ - ⟨p, q - p⟩`. -/
def sR (a p q : Fin 64 → ℝ) : ℝ := ∑ k, a k * dR p q k - ∑ k, p k * dR p q k

/-- A sum of squares is nonnegative. -/
theorem DR_nonneg (p q : Fin 64 → ℝ) : 0 ≤ DR p q :=
  Finset.sum_nonneg (fun k _ => mul_self_nonneg _)

/-- A vanishing sum of squares has every term zero. -/
theorem dR_eq_zero (p q : Fin 64 → ℝ) (h : DR p q = 0) (k : Fin 64) : dR p q k = 0 := by
  have := (Finset.sum_eq_zero_iff_of_nonneg (fun k _ => mul_self_nonneg (dR p q k))).mp h k (Finset.mem_univ k)
  exact mul_self_eq_zero.mp this

/-- On a degenerate segment the projection coefficient vanishes. -/
theorem sR_eq_zero (a p q : Fin 64 → ℝ) (h : DR p q = 0) : sR a p q = 0 := by
  simp [sR, dR_eq_zero p q h]

/-- The kernel's weight on real rows. -/
theorem kerW_coe (a p q : Fin 64 → ℝ) :
    kerW (fun k => ((a k : ℝ) : EReal)) (fun k => ((p k : ℝ) : EReal)) (fun k => ((q k : ℝ) : EReal))
      = ((wt (sR a p q) (Real.sqrt (DR p q)) : ℝ) : EReal) := by
  unfold kerW
  rw [dif_coe, dot_coe a, dot_coe p, dot_coe (dR p q), ← EReal.coe_sub, Ideal.sqrt_coe]
  change weight ((sR a p q : ℝ) : EReal)
      (if DR p q < 0 then ⊥ else ((Real.sqrt (DR p q) : ℝ) : EReal)) = _
  rw [if_neg (not_lt.mpr (DR_nonneg p q)), weight_coe]

/-- The reference's projection vector on real rows (on a degenerate segment it is zero on both sides). -/
theorem refVec_coe (a p q : Fin 64 → ℝ) :
    refVec (fun k => ((a k : ℝ) : EReal)) (fun k => ((p k : ℝ) : EReal)) (fun k => ((q k : ℝ) : EReal))
      = fun k => ((sR a p q / Real.sqrt (DR p q) * dR p q k : ℝ) : EReal) := by
  unfold refVec
  rw [dif_coe, dot_coe a, dot_coe p, dot_coe (dR p q), lit_zero, ← EReal.coe_add,
    ← EReal.coe_add, ← EReal.coe_sub, zero_add, zero_add, Ideal.sqrt_coe]
  change (fun k => Ideal.div ((sR a p q : ℝ) : EReal) (if DR p q < 0 then ⊥ else ((Real.sqrt (DR p q) : ℝ) : EReal))
      * ((dR p q k : ℝ) : EReal)) = _
  rw [if_neg (not_lt.mpr (DR_nonneg p q))]
  funext k
  rcases (DR_nonneg p q).eq_or_lt with h | h
  · rw [dR_eq_zero p q h.symm k]; simp
  · have hs : Real.sqrt (DR p q) ≠ 0 := (Real.sqrt_pos.mpr h).ne'
    rw [Ideal.div_coe hs, ← EReal.coe_mul, ← EReal.coe_mul]
    congr 1; ring

/-- The projection vector's inner product with the direction. -/
theorem proj_dot_dR (c : ℝ) (p q : Fin 64 → ℝ) :
    ∑ k, (c * dR p q k) * dR p q k = c * DR p q := by
  unfold DR; rw [Finset.mul_sum]; exact Finset.sum_congr rfl (fun k _ => by ring)

/-- The projection vector's squared norm is `s²`. -/
theorem proj_dot_self (a p q : Fin 64 → ℝ) :
    ∑ k, (sR a p q / Real.sqrt (DR p q) * dR p q k) * (sR a p q / Real.sqrt (DR p q) * dR p q k)
      = sR a p q * sR a p q := by
  have h1 : ∑ k, (sR a p q / Real.sqrt (DR p q) * dR p q k) * (sR a p q / Real.sqrt (DR p q) * dR p q k)
      = (sR a p q / Real.sqrt (DR p q)) * (sR a p q / Real.sqrt (DR p q)) * DR p q := by
    unfold DR; rw [Finset.mul_sum]; exact Finset.sum_congr rfl (fun k _ => by ring)
  rw [h1]
  rcases (DR_nonneg p q).eq_or_lt with h | h
  · rw [← h, sR_eq_zero a p q h.symm]; simp
  · have hs : Real.sqrt (DR p q) ≠ 0 := (Real.sqrt_pos.mpr h).ne'
    have hm : Real.sqrt (DR p q) * Real.sqrt (DR p q) = DR p q := Real.mul_self_sqrt h.le
    generalize Real.sqrt (DR p q) = r at hs hm
    rw [← hm]; field_simp

/-- The norm of the reference's projection vector on real rows is `|s|`. -/
theorem refNorm_coe (a p q : Fin 64 → ℝ) :
    refNorm (fun k => ((a k : ℝ) : EReal)) (fun k => ((p k : ℝ) : EReal)) (fun k => ((q k : ℝ) : EReal))
      = ((|sR a p q| : ℝ) : EReal) := by
  unfold refNorm
  rw [refVec_coe, dot_coe, proj_dot_self, lit_zero, ← EReal.coe_add, zero_add, Ideal.sqrt_coe,
    if_neg (not_lt.mpr (mul_self_nonneg _)), Real.sqrt_mul_self_eq_abs]

/-- The reference's weight on real rows is the kernel's. -/
theorem refW_coe (a p q : Fin 64 → ℝ) :
    refW (fun k => ((a k : ℝ) : EReal)) (fun k => ((p k : ℝ) : EReal)) (fun k => ((q k : ℝ) : EReal))
      = ((wt (sR a p q) (Real.sqrt (DR p q)) : ℝ) : EReal) := by
  unfold refW
  rw [refNorm_coe, refVec_coe, dif_coe, dot_coe, dot_coe (dR p q) (dR p q), proj_dot_dR, lit_zero, lit_one,
    ← EReal.coe_add, ← EReal.coe_add, zero_add, zero_add, Ideal.sqrt_coe]
  change Scalar.select (Ideal.cmp .olt ((sR a p q / Real.sqrt (DR p q) * DR p q : ℝ) : EReal) ((0 : ℝ) : EReal))
      ((1 : ℝ) : EReal)
      (Scalar.select
        (Ideal.cmp .olt
          (Ideal.div ((|sR a p q| : ℝ) : EReal) (if DR p q < 0 then ⊥ else ((Real.sqrt (DR p q) : ℝ) : EReal)))
          ((1 : ℝ) : EReal))
        ((|sR a p q| : ℝ) : EReal) ((0 : ℝ) : EReal)) = _
  rw [if_neg (not_lt.mpr (DR_nonneg p q))]
  rcases (DR_nonneg p q).eq_or_lt with h | h
  · have hs0 := sR_eq_zero a p q h.symm
    rw [← h, hs0]
    simp [Scalar.select, Ideal.cmp, Ideal.div, wt]
  · have hr : 0 < Real.sqrt (DR p q) := Real.sqrt_pos.mpr h
    rw [Ideal.div_coe hr.ne', ← EReal.coe_mul]
    simp only [Scalar.select, Ideal.cmp, EReal.coe_lt_coe_iff, wt]
    have e1 : (sR a p q / Real.sqrt (DR p q) * DR p q < 0) ↔ sR a p q < 0 := by
      constructor
      · intro hlt
        by_contra hge
        have : 0 ≤ sR a p q / Real.sqrt (DR p q) * DR p q :=
          mul_nonneg (div_nonneg (not_lt.mp hge) hr.le) h.le
        linarith
      · intro hlt
        exact mul_neg_of_neg_of_pos (div_neg_of_neg_of_pos hlt hr) h
    have e2 : (|sR a p q| * (1 / Real.sqrt (DR p q)) < 1) ↔ |sR a p q| < Real.sqrt (DR p q) := by
      rw [mul_one_div, div_lt_one hr]
    simp only [e1, e2]
    by_cases c1 : sR a p q < 0
    · simp [c1]
    · by_cases c2 : |sR a p q| < Real.sqrt (DR p q)
      · simp [c1, c2]
      · simp [c1, c2]

/-- The reference's residual on real rows. -/
theorem refRes_coe (a p q : Fin 64 → ℝ) :
    refRes (fun k => ((a k : ℝ) : EReal)) (fun k => ((p k : ℝ) : EReal)) (fun k => ((q k : ℝ) : EReal))
      = fun k => ((a k - (wt (sR a p q) (Real.sqrt (DR p q)) * p k
          + (1 - wt (sR a p q) (Real.sqrt (DR p q))) * q k) : ℝ) : EReal) := by
  unfold refRes
  rw [refW_coe, lit_one]
  funext k
  simp only [← EReal.coe_sub, ← EReal.coe_mul, ← EReal.coe_add]

/-- The squared distance to the point `l p + (1 - l) q`, expanded into inner products. -/
theorem sq_expand (a p q : Fin 64 → ℝ) (L : ℝ) :
    ∑ k, (a k - (L * p k + (1 - L) * q k)) * (a k - (L * p k + (1 - L) * q k))
      = (∑ k, a k * a k - 2 * ∑ k, a k * q k + ∑ k, q k * q k)
        + 2 * L * (∑ k, a k * dR p q k - ∑ k, q k * dR p q k)
        + L * L * ∑ k, dR p q k * dR p q k := by
  simp only [Finset.mul_sum, ← Finset.sum_add_distrib, ← Finset.sum_sub_distrib]
  exact Finset.sum_congr rfl (fun k _ => by unfold dR; ring)

/-- For real rows `a`, `p`, `q` and a real `ρ` the two element functions agree. -/
theorem ref_eq_ker (a p q : Fin 64 → ℝ) (ρ : ℝ) :
    ref (fun k => ((a k : ℝ) : EReal)) (fun k => ((p k : ℝ) : EReal)) (fun k => ((q k : ℝ) : EReal)) ((ρ : ℝ) : EReal)
      = ker (fun k => ((a k : ℝ) : EReal)) (fun k => ((p k : ℝ) : EReal)) (fun k => ((q k : ℝ) : EReal)) ((ρ : ℝ) : EReal) := by
  unfold ref ker
  refine congrArg Ideal.exp (congrArg (fun x => Ideal.div x _) ?_)
  rw [refRes_coe, dot_coe, kerW_coe, dif_coe, dot_coe a a, dot_coe a q, dot_coe q q, dot_coe a (dR p q),
    dot_coe q (dR p q), dot_coe (dR p q) (dR p q), lit_zero, lit_two]
  simp only [← EReal.coe_sub, ← EReal.coe_mul, ← EReal.coe_add, ← EReal.coe_neg]
  rw [sq_expand]
  congr 1
  ring

end Cert.Elem

end
-- ==== Proof.KerRead.lean ====
/-
  The kernel's block at an index is the kernel's element function of the rows that index selects.
-/
import proofs.«108052_j62148176773493_1_alg».proof.Proof.Gen.KernelIdeal.Value
import proofs.«108052_j62148176773493_1_alg».proof.Proof.Elem
import Idealize.ShloMosaic.PureOps.Ideal.Laws
import Idealize.ShloMosaic.Lib.ValueIdx
import Idealize.ShloMosaic.Lib.Pipeline.Value

noncomputable section

open scoped BigOperators

namespace Cert.KernelIdeal.KerRead

open Cert.KernelIdeal Cert.KernelIdeal.Gen Idealize.ShloMosaic Idealize.ShloMosaic.ValueIdx

/-- A row sum of a `[512, 64]` array: at row `u` it is the sum over the 64 columns. -/
theorem rowsum512 (v : FVec Ideal S512x64 .f32) (u : Fin 512) :
    multiReduction (F := Ideal) .add [1] S512 v 0x00000000#32 reduces_S512x64_S512 (.inl rfl) rfl (ix1 u)
      = ∑ k : Fin 64, v (ix2 u k) := by
  refine (Ideal.multiReduction_add_single v 0x00000000#32 reduces_S512x64_S512 (.inl rfl) rfl (ix1 u)).trans ?_
  refine Finset.sum_congr rfl fun k _ => congrArg v ?_
  funext a
  match a with
  | ⟨0, _⟩ => rfl
  | ⟨1, _⟩ => rfl

/-- A row sum of a `[256, 64]` array. -/
theorem rowsum256 (v : FVec Ideal S256x64 .f32) (b : Fin 256) :
    multiReduction (F := Ideal) .add [1] S256 v 0x00000000#32 reduces_S256x64_S256 (.inl rfl) rfl (ix1 b)
      = ∑ k : Fin 64, v (ix2 b k) := by
  refine (Ideal.multiReduction_add_single v 0x00000000#32 reduces_S256x64_S256 (.inl rfl) rfl (ix1 b)).trans ?_
  refine Finset.sum_congr rfl fun k _ => congrArg v ?_
  funext a
  match a with
  | ⟨0, _⟩ => rfl
  | ⟨1, _⟩ => rfl

theorem lhs_dot_0 (i : S256x512.Idx) (q : dot_S256x64_S512x64_S256x512_1_1_0_0_n_n.contr.Idx) :
    (dot_S256x64_S512x64_S256x512_1_1_0_0_n_n.lhsIdx i q 0).val = (i 0).val := by
  unfold DotDims.lhsIdx
  rw [dif_neg (show ¬(0 : Fin S256x64.rank) ∈ dot_S256x64_S512x64_S256x512_1_1_0_0_n_n.lhsBatch by decide), dif_pos (show (0 : Fin S256x64.rank) ∈ dot_S256x64_S512x64_S256x512_1_1_0_0_n_n.lhsNonContracting by decide)]
  rfl
theorem lhs_dot_1 (i : S256x512.Idx) (q : dot_S256x64_S512x64_S256x512_1_1_0_0_n_n.contr.Idx) :
    (dot_S256x64_S512x64_S256x512_1_1_0_0_n_n.lhsIdx i q 1).val = (q ⟨0, by decide⟩).val :=
  dot_S256x64_S512x64_S256x512_1_1_0_0_n_n.lhsIdx_val_of_single rfl i q
theorem rhs_dot_0 (i : S256x512.Idx) (q : dot_S256x64_S512x64_S256x512_1_1_0_0_n_n.contr.Idx) :
    (dot_S256x64_S512x64_S256x512_1_1_0_0_n_n.rhsIdx i q 0).val = (i 1).val := by
  unfold DotDims.rhsIdx
  rw [dif_neg (show ¬(0 : Fin S512x64.rank) ∈ dot_S256x64_S512x64_S256x512_1_1_0_0_n_n.rhsBatch by decide), dif_pos (show (0 : Fin S512x64.rank) ∈ dot_S256x64_S512x64_S256x512_1_1_0_0_n_n.rhsNonContracting by decide)]
  rfl
theorem rhs_dot_1 (i : S256x512.Idx) (q : dot_S256x64_S512x64_S256x512_1_1_0_0_n_n.contr.Idx) :
    (dot_S256x64_S512x64_S256x512_1_1_0_0_n_n.rhsIdx i q 1).val = (q ⟨0, by decide⟩).val :=
  dot_S256x64_S512x64_S256x512_1_1_0_0_n_n.rhsIdx_val_of_single rfl i q

/-- The matrix product into the zero accumulator, contracting the two operands' columns: entry `(b, u)` is the
    inner product of row `b` of the left operand and row `u` of the right. -/
theorem matmul_read (A : FVec Ideal S256x64 .f32) (B : FVec Ideal S512x64 .f32) (b : Fin 256) (u : Fin 512) :
    matmul (F := Ideal) dot_S256x64_S512x64_S256x512_1_1_0_0_n_n none A B (constant S256x512 .f32 0x00000000#32) (ix2 b u)
      = ∑ k : Fin 64, A (ix2 b k) * B (ix2 u k) := by
  refine (Ideal.matmul_constant_zero_apply dot_S256x64_S512x64_S256x512_1_1_0_0_n_n none A B (ix2 b u)).trans ?_
  rw [← Equiv.sum_comp (contrEquiv1 dot_S256x64_S512x64_S256x512_1_1_0_0_n_n 64 rfl rfl).symm]
  refine Finset.sum_congr rfl fun k _ => ?_
  have hk := contrEquiv1_symm_val dot_S256x64_S512x64_S256x512_1_1_0_0_n_n 64 rfl rfl k
  have el : dot_S256x64_S512x64_S256x512_1_1_0_0_n_n.lhsIdx (ix2 b u) ((contrEquiv1 dot_S256x64_S512x64_S256x512_1_1_0_0_n_n 64 rfl rfl).symm k) = ix2 b k := funext fun a => Fin.ext (by
    match a with
    | ⟨0, _⟩ => exact lhs_dot_0 _ _
    | ⟨1, _⟩ => exact (lhs_dot_1 _ _).trans hk)
  have er : dot_S256x64_S512x64_S256x512_1_1_0_0_n_n.rhsIdx (ix2 b u) ((contrEquiv1 dot_S256x64_S512x64_S256x512_1_1_0_0_n_n 64 rfl rfl).symm k) = ix2 u k := funext fun a => Fin.ext (by
    match a with
    | ⟨0, _⟩ => exact rhs_dot_0 _ _
    | ⟨1, _⟩ => exact (rhs_dot_1 _ _).trans hk)
  rw [el, er]

/-- A `[256]` array cast to a column `[256, 1]` reads, at `(b, z)`, the operand at `b`. -/
theorem shapeCast_col_apply {α : Type} (x : S256.Idx → α) (b : Fin 256) (z : Fin 1) :
    shapeCast S256x1 x shapeCasts_S256_S256x1 (ix2 b z) = x (ix1 b) :=
  shapeCast_apply x shapeCasts_S256_S256x1 _ _ (by
    have hz : z.val = 0 := by omega
    rw [Shape.rowMajor_val_two, Shape.rowMajor_val_one]
    show b.val = b.val * 1 + z.val
    rw [hz, Nat.mul_one, Nat.add_zero])

/-- A column `[256, 1]` broadcast to `[256, 512]` reads, at `(b, u)`, the column's entry `b`. -/
theorem broadcastTo_col_apply {α : Type} (x : S256x1.Idx → α) (b : Fin 256) (u : Fin 512) :
    broadcastTo S256x512 x broadcasts_S256x1_S256x512 (ix2 b u) = x (ix2 b (0 : Fin 1)) :=
  broadcastTo_apply x broadcasts_S256x1_S256x512 _ _ (fun a => match a with
    | ⟨0, _⟩ => by show b.val = (if (256 : Nat) = 1 then 0 else b.val); rw [if_neg (by decide)]
    | ⟨1, _⟩ => by show 0 = (if (1 : Nat) = 1 then 0 else u.val); rw [if_pos rfl])

/-- A `[512]` array cast to a row `[1, 512]` reads, at `(z, u)`, the operand at `u`. -/
theorem shapeCast_row_apply {α : Type} (x : S512.Idx → α) (z : Fin 1) (u : Fin 512) :
    shapeCast S1x512 x shapeCasts_S512_S1x512 (ix2 z u) = x (ix1 u) :=
  shapeCast_apply x shapeCasts_S512_S1x512 _ _ (by
    have hz : z.val = 0 := by omega
    rw [Shape.rowMajor_val_two, Shape.rowMajor_val_one]
    show u.val = z.val * 512 + u.val
    rw [hz, Nat.zero_mul, Nat.zero_add])

/-- A row `[1, 512]` broadcast to `[256, 512]` reads, at `(b, u)`, the row's entry `u`. -/
theorem broadcastTo_row_apply {α : Type} (x : S1x512.Idx → α) (b : Fin 256) (u : Fin 512) :
    broadcastTo S256x512 x broadcasts_S1x512_S256x512 (ix2 b u) = x (ix2 (0 : Fin 1) u) :=
  broadcastTo_apply x broadcasts_S1x512_S256x512 _ _ (fun a => match a with
    | ⟨0, _⟩ => by show 0 = (if (1 : Nat) = 1 then 0 else b.val); rw [if_pos rfl]
    | ⟨1, _⟩ => by show u.val = (if (512 : Nat) = 1 then 0 else u.val); rw [if_neg (by decide)])

/-- The first payload: entry `(b, u)` is the inner product of row `b` of `P0` with the difference of rows `u` of
    `P1` and `P2`. -/
theorem pay4_read (P0 : Vec Ideal S256x64 .f32) (P1 P2 : Vec Ideal S512x64 .f32) (b : Fin 256) (u : Fin 512) :
    k0_pay4 (F := Ideal) P0 P2 P1 (ix2 b u)
      = Cert.Elem.dot (fun k => P0 (ix2 b k)) (Cert.Elem.dif (fun k => P2 (ix2 u k)) (fun k => P1 (ix2 u k))) := by
  unfold k0_pay4 k0_pay2
  exact matmul_read P0 (subf P1 P2) b u

/-- The second payload: entry `(b, u)` is `‖a‖² - 2⟨a, q⟩ + ‖q‖²` for row `b` of `P0` and row `u` of `P1`. -/
theorem pay6_read (P0 : Vec Ideal S256x64 .f32) (P1 : Vec Ideal S512x64 .f32) (b : Fin 256) (u : Fin 512) :
    k0_pay6 (F := Ideal) P0 P1 (ix2 b u)
      = (Cert.Elem.dot (fun k => P0 (ix2 b k)) (fun k => P0 (ix2 b k))
          - Ideal.ofBits .f32 0x40000000#32 * Cert.Elem.dot (fun k => P0 (ix2 b k)) (fun k => P1 (ix2 u k)))
        + Cert.Elem.dot (fun k => P1 (ix2 u k)) (fun k => P1 (ix2 u k)) := by
  unfold k0_pay6
  have e1 := (broadcastTo_col_apply (shapeCast S256x1 (multiReduction (F := Ideal) .add [1] S256 (mulf P0 P0) 0x00000000#32 reduces_S256x64_S256 (.inl rfl) rfl) shapeCasts_S256_S256x1) b u).trans
    ((shapeCast_col_apply _ b 0).trans (rowsum256 _ b))
  have e2 := matmul_read P0 P1 b u
  have e3 := (broadcastTo_row_apply (shapeCast S1x512 (multiReduction (F := Ideal) .add [1] S512 (mulf P1 P1) 0x00000000#32 reduces_S512x64_S512 (.inl rfl) rfl) shapeCasts_S512_S1x512) b u).trans
    ((shapeCast_row_apply _ 0 u).trans (rowsum512 _ u))
  exact congrArg₂ (· + ·) (congrArg₂ (· - ·) e1 (congrArg (Ideal.ofBits .f32 0x40000000#32 * ·) e2)) e3

/-- A `[256, 512]` read of the block's index is at that index. -/
theorem ixA_eq (y : S256x512.Idx) : Value.ix4_0 y = y := by
  funext a
  match a with
  | ⟨0, _⟩ => rfl
  | ⟨1, _⟩ => rfl

/-- A `[512]` read of the block's index is at its column. -/
theorem ixB_eq (y : S256x512.Idx) : Value.ix4_2 y = ix1 (y 1) := by
  funext a
  match a with
  | ⟨0, _⟩ => rfl

/-- A `[1, 512]` read of the block's index is at row 0 and its column. -/
theorem ixC_eq (y : S256x512.Idx) : Value.ix4_25 y = ix2 (0 : Fin 1) (y 1) := by
  funext a
  match a with
  | ⟨0, _⟩ => rfl
  | ⟨1, _⟩ => rfl

/-- Entry `(b, u)` of the block the body leaves, as a function of the body's four loads: the kernel's element of
    row `b` of the `x` block `P0`, rows `u` of the `q1` block `P2` and of the `q2` block `P1`, and entry `(0, u)` of `P3`. -/
theorem block_apply (P0 : Vec Ideal S256x64 .f32) (P1 P2 : Vec Ideal S512x64 .f32) (P3 : Vec Ideal S1x512 .f32)
    (b : Fin 256) (u : Fin 512) :
    Cert.KernelIdeal.Value.E4 (F := Ideal) P0 P1 P2 P3 (ix2 b u)
      = Cert.Elem.ker (fun k => P0 (ix2 b k)) (fun k => P2 (ix2 u k)) (fun k => P1 (ix2 u k)) (P3 (ix2 (0 : Fin 1) u)) := by
  have h6 := pay6_read P0 P1 b u
  have h4 := pay4_read P0 P1 P2 b u
  have hp : multiReduction (F := Ideal) .add [1] S512 (mulf P2 (subf P1 P2)) 0x00000000#32 reduces_S512x64_S512 (.inl rfl) rfl (ix1 u)
      = Cert.Elem.dot (fun k => P2 (ix2 u k)) (Cert.Elem.dif (fun k => P2 (ix2 u k)) (fun k => P1 (ix2 u k))) :=
    rowsum512 _ u
  have hq : multiReduction (F := Ideal) .add [1] S512 (mulf P1 (subf P1 P2)) 0x00000000#32 reduces_S512x64_S512 (.inl rfl) rfl (ix1 u)
      = Cert.Elem.dot (fun k => P1 (ix2 u k)) (Cert.Elem.dif (fun k => P2 (ix2 u k)) (fun k => P1 (ix2 u k))) :=
    rowsum512 _ u
  have hd : multiReduction (F := Ideal) .add [1] S512 (mulf (subf P1 P2) (subf P1 P2)) 0x00000000#32 reduces_S512x64_S512 (.inl rfl) rfl (ix1 u)
      = Cert.Elem.dot (Cert.Elem.dif (fun k => P2 (ix2 u k)) (fun k => P1 (ix2 u k))) (Cert.Elem.dif (fun k => P2 (ix2 u k)) (fun k => P1 (ix2 u k))) :=
    rowsum512 _ u
  unfold Cert.KernelIdeal.Value.E4
  rw [show Value.ix4_0 (ix2 b u) = ix2 b u from ixA_eq _,
    show Value.ix4_1 (ix2 b u) = ix2 b u from ixA_eq _,
    show Value.ix4_3 (ix2 b u) = ix2 b u from ixA_eq _,
    show Value.ix4_6 (ix2 b u) = ix2 b u from ixA_eq _,
    show Value.ix4_8 (ix2 b u) = ix2 b u from ixA_eq _,
    show Value.ix4_10 (ix2 b u) = ix2 b u from ixA_eq _,
    show Value.ix4_12 (ix2 b u) = ix2 b u from ixA_eq _,
    show Value.ix4_15 (ix2 b u) = ix2 b u from ixA_eq _,
    show Value.ix4_17 (ix2 b u) = ix2 b u from ixA_eq _,
    show Value.ix4_19 (ix2 b u) = ix2 b u from ixA_eq _,
    show Value.ix4_22 (ix2 b u) = ix2 b u from ixA_eq _,
    show Value.ix4_2 (ix2 b u) = ix1 u from ixB_eq _,
    show Value.ix4_4 (ix2 b u) = ix1 u from ixB_eq _,
    show Value.ix4_5 (ix2 b u) = ix1 u from ixB_eq _,
    show Value.ix4_7 (ix2 b u) = ix1 u from ixB_eq _,
    show Value.ix4_9 (ix2 b u) = ix1 u from ixB_eq _,
    show Value.ix4_11 (ix2 b u) = ix1 u from ixB_eq _,
    show Value.ix4_13 (ix2 b u) = ix1 u from ixB_eq _,
    show Value.ix4_14 (ix2 b u) = ix1 u from ixB_eq _,
    show Value.ix4_16 (ix2 b u) = ix1 u from ixB_eq _,
    show Value.ix4_18 (ix2 b u) = ix1 u from ixB_eq _,
    show Value.ix4_20 (ix2 b u) = ix1 u from ixB_eq _,
    show Value.ix4_21 (ix2 b u) = ix1 u from ixB_eq _,
    show Value.ix4_23 (ix2 b u) = ix1 u from ixB_eq _,
    show Value.ix4_24 (ix2 b u) = ix1 u from ixB_eq _,
    show Value.ix4_25 (ix2 b u) = ix2 (0 : Fin 1) u from ixC_eq _,
    show Value.ix4_26 (ix2 b u) = ix2 (0 : Fin 1) u from ixC_eq _]
  rw [h6, h4, hp, hq, hd]
  rfl

end Cert.KernelIdeal.KerRead

end
-- ==== Proof.KerFinal.lean ====
/-
  From blocks to the whole array: what the kernel's run leaves in the result array.

  The grid has 8 points; point `t` reads rows `256 t … 256 t + 255` of `x`, all of `q1`, `q2` and `r` (as a
  [1, 512] array), and writes rows `256 t … 256 t + 255` of the result. Entry `(b, u)` of the block it writes is the
  kernel's element of row `b` of its `x` block and rows `u` of `q1`, `q2`, entry `u` of `r`; read through the blocks'
  positions this is entry `(256 t + b, u)` of the whole-array function `Elem.G`. The 8 blocks tile the array, so
  the array ends holding `Elem.G` of the four arguments.
-/
import proofs.«108052_j62148176773493_1_alg».proof.Proof.Gen.KernelIdeal.Value
import proofs.«108052_j62148176773493_1_alg».proof.Proof.Elem
import proofs.«108052_j62148176773493_1_alg».proof.Proof.KerRead
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KerFinal

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The result array as one function of the four argument arrays as launched. -/
abbrev Gm (c : Dev nD) : S2048x512.Idx → EReal :=
  Cert.Elem.G (m ((c : Thread nD τ).loc main_arg0)) (m ((c : Thread nD τ).loc main_arg1))
    (m ((c : Thread nD τ).loc main_arg2)) (m ((c : Thread nD τ).loc main_arg3))

/-- Entry `(b, u)` of the block the body leaves, over the four input blocks as variables: the kernel's element
    of row `b` of the `x` block, rows `u` of the `q1` and `q2` blocks and entry `(0, u)` of the `r` block. -/
theorem out_apply (x0 : Vec Ideal S256x64 .f32) (x1 x2 : Vec Ideal S512x64 .f32) (x3 : Vec Ideal S1x512 .f32)
    (b : Fin 256) (u : Fin 512) :
    out0_4 x0 x1 x2 x3 (ix2 b u)
      = Cert.Elem.ker (fun k => x0 (ix2 b k)) (fun k => x1 (ix2 u k)) (fun k => x2 (ix2 u k))
          (x3 (ix2 (0 : Fin 1) u)) := by
  unfold out0_4
  rw [Value.canon4_eq]
  refine (Cert.KernelIdeal.KerRead.block_apply _ _ _ _ b u).trans ?_
  rw [View.ld_unit_zero (S := S256x64) hz, View.ld_unit_zero (S := S512x64) hz _ x1,
    View.ld_unit_zero (S := S512x64) hz _ x2, View.ld_unit_zero (S := S1x512) hz]

/-- The index maps, decided over the 8 points: the `x` window moves with the result's window along the rows;
    every other block index is 0; the result's row-block index is the point's number. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The `r` window's array is the argument `r` reshaped to one row. -/
theorem V_main_v0 (c : Dev nD) :
    (V m c main_v0 : S1x512.Idx → EReal)
      = shapeCast S1x512 (m ((c : Thread nD τ).loc main_arg3) : S512.Idx → EReal) shapeCasts_S512_S1x512 := by
  dsimp only [Gen.V, Gen.hostOps0]
  after_results
  rfl

/-- Row `b` of the `x` block at point `t` is row `256 t + b` of `x`. -/
theorem xblk_apply (c : Dev nD) (t : Fin cfg0.N) (b : Fin 256) (k : Fin 64) (B : Fin 2048)
    (hB : B.val = 256 * t.val + b.val) :
    (iblk m c 0 t : Vec Ideal S256x64 .f32) (ix2 b k)
      = (m ((c : Thread nD τ).loc main_arg0) : S2048x64.Idx → EReal) (ix2 B k) := by
  obtain ⟨e0, e1, -, -, -, -, -, -, e8, -⟩ := idx_facts t
  unfold iblk
  rw [View.read_apply]
  show V m c main_arg0 _ = _
  rw [V_main_arg0]
  congr 1
  funext a
  apply Fin.ext
  match a with
  | ⟨0, _⟩ => show win0_0.index t (0 : Fin 2) * 256 + 1 * b.val = B.val; rw [e0, e8, hB]; omega
  | ⟨1, _⟩ => show win0_0.index t (1 : Fin 2) * 64 + 1 * k.val = k.val; rw [e1]; omega

/-- The `q1` block at every point is all of `q1`. -/
theorem q1blk_apply (c : Dev nD) (t : Fin cfg0.N) (u : Fin 512) (k : Fin 64) :
    (iblk m c 1 t : Vec Ideal S512x64 .f32) (ix2 u k)
      = (m ((c : Thread nD τ).loc main_arg1) : S512x64.Idx → EReal) (ix2 u k) := by
  obtain ⟨-, -, e2, e3, -, -, -, -, -, -⟩ := idx_facts t
  unfold iblk
  rw [View.read_apply]
  show V m c main_arg1 _ = _
  rw [V_main_arg1]
  congr 1
  funext a
  apply Fin.ext
  match a with
  | ⟨0, _⟩ => show win0_1.index t (0 : Fin 2) * 512 + 1 * u.val = u.val; rw [e2]; omega
  | ⟨1, _⟩ => show win0_1.index t (1 : Fin 2) * 64 + 1 * k.val = k.val; rw [e3]; omega

/-- The `q2` block at every point is all of `q2`. -/
theorem q2blk_apply (c : Dev nD) (t : Fin cfg0.N) (u : Fin 512) (k : Fin 64) :
    (iblk m c 2 t : Vec Ideal S512x64 .f32) (ix2 u k)
      = (m ((c : Thread nD τ).loc main_arg2) : S512x64.Idx → EReal) (ix2 u k) := by
  obtain ⟨-, -, -, -, e4, e5, -, -, -, -⟩ := idx_facts t
  unfold iblk
  rw [View.read_apply]
  show V m c main_arg2 _ = _
  rw [V_main_arg2]
  congr 1
  funext a
  apply Fin.ext
  match a with
  | ⟨0, _⟩ => show win0_2.index t (0 : Fin 2) * 512 + 1 * u.val = u.val; rw [e4]; omega
  | ⟨1, _⟩ => show win0_2.index t (1 : Fin 2) * 64 + 1 * k.val = k.val; rw [e5]; omega

/-- Entry `(0, u)` of the `r` block at every point is entry `u` of `r`. -/
theorem rblk_apply (c : Dev nD) (t : Fin cfg0.N) (u : Fin 512) :
    (iblk m c 3 t : Vec Ideal S1x512 .f32) (ix2 (0 : Fin 1) u)
      = (m ((c : Thread nD τ).loc main_arg3) : S512.Idx → EReal) (ix1 u) := by
  obtain ⟨-, -, -, -, -, -, e6, e7, -, -⟩ := idx_facts t
  unfold iblk
  rw [View.read_apply]
  show (V m c main_v0 : S1x512.Idx → EReal) _ = _
  rw [V_main_v0]
  refine shapeCast_apply _ _ _ (ix1 u) ?_
  rw [Shape.rowMajor_val_one, Shape.rowMajor_val_two]
  show u.val = (win0_3.index t (0 : Fin 2) * 1 + 1 * 0) * 512 + (win0_3.index t (1 : Fin 2) * 512 + 1 * u.val)
  rw [e6, e7]; omega

/-- Entry `(b, u)` of the result's block at point `t` sits at `(256 t + b, u)` in the array. -/
theorem emb_out (t : Fin cfg0.N) (b : Fin 256) (u : Fin 512) (B : Fin 2048) (hB : B.val = 256 * t.val + b.val) :
    (((cfg0.win 4).blk t).view.emb (ix2 b u) : S2048x512.Idx) = ix2 B u := by
  obtain ⟨-, -, -, -, -, -, -, -, e8, e9⟩ := idx_facts t
  funext a
  apply Fin.ext
  match a with
  | ⟨0, _⟩ => show win0_4.index t (0 : Fin 2) * 256 + 1 * b.val = B.val; rw [e8, hB]; omega
  | ⟨1, _⟩ => show win0_4.index t (1 : Fin 2) * 512 + 1 * u.val = u.val; rw [e9]; omega

/-- The whole-array function at `(B, u)`: the kernel's element of row `B` of `x`, rows `u` of `q1` and `q2`,
    entry `u` of `r`. -/
theorem Gm_apply (c : Dev nD) (B : Fin 2048) (u : Fin 512) :
    Gm m c (ix2 B u)
      = Cert.Elem.ker (fun k => (m ((c : Thread nD τ).loc main_arg0) : S2048x64.Idx → EReal) (ix2 B k))
          (fun k => (m ((c : Thread nD τ).loc main_arg1) : S512x64.Idx → EReal) (ix2 u k))
          (fun k => (m ((c : Thread nD τ).loc main_arg2) : S512x64.Idx → EReal) (ix2 u k))
          ((m ((c : Thread nD τ).loc main_arg3) : S512.Idx → EReal) (ix1 u)) := rfl

/-- What point `t` writes back is block `t` of the whole-array function. -/
theorem flushed_eq (c : Dev nD) (t : Fin cfg0.N) :
    (dats m 0 c).flushed 4 t = ((cfg0.win 4).blk t).view.read (Elt Ideal) (Gm m c) := by
  rw [Value.flushed4]
  funext j
  obtain ⟨b, u, rfl⟩ : ∃ (b : Fin 256) (u : Fin 512), (j : S256x512.Idx) = ix2 b u := ⟨j 0, j 1, eq_ix2 j⟩
  have hN : cfg0.N = 8 := N_0
  have hB : 256 * t.val + b.val < 2048 := by have := t.isLt; have := b.isLt; omega
  show out0_4 (iblk m c 0 t) (iblk m c 1 t) (iblk m c 2 t) (iblk m c 3 t) (ix2 b u)
      = Gm m c (((cfg0.win 4).blk t).view.emb (ix2 b u))
  rw [emb_out t b u ⟨256 * t.val + b.val, hB⟩ rfl, Gm_apply]
  refine (out_apply (iblk m c 0 t) (iblk m c 1 t) (iblk m c 2 t) (iblk m c 3 t) b u).trans ?_
  congr 1
  · funext k; exact xblk_apply m c t b k _ rfl
  · funext k; exact q1blk_apply m c t u k
  · funext k; exact q2blk_apply m c t u k
  · exact rblk_apply m c t u

/-- An index of the array is in point `t`'s block iff each coordinate is in the block's range on its axis. -/
theorem mem_blk (t : Fin cfg0.N) (i : S2048x512.Idx) :
    i ∈ ((cfg0.win 4).blk t).view.set ↔ ∀ a : Fin 2, win0_4.index t a * S256x512.size a ≤ (i a).val
      ∧ (i a).val < win0_4.index t a * S256x512.size a + S256x512.size a := by
  show i ∈ ((View.whole main_v1).slice (win0_4.rect t)).set ↔ _
  rw [View.set_slice_whole, Rect.mem_set_unit]
  exact Iff.rfl

/-- The 8 blocks tile the array: row `r` is in the block of point `r / 256`. -/
theorem cover (i : S2048x512.Idx) :
    ∃ t : Fin cfg0.N, (cfg0.win 4).flush t = true ∧ i ∈ ((cfg0.win 4).blk t).view.set := by
  have hN : cfg0.N = 8 := N_0
  have hi0 : (i 0).val < 2048 := (i 0).isLt
  have hi1 : (i 1).val < 512 := (i 1).isLt
  have ht : (i 0).val / 256 < cfg0.N := by rw [hN]; omega
  obtain ⟨-, -, -, -, -, -, -, -, e8, e9⟩ := idx_facts ⟨(i 0).val / 256, ht⟩
  refine ⟨⟨(i 0).val / 256, ht⟩, flush0_4 _, ?_⟩
  rw [mem_blk]
  intro a
  match a with
  | ⟨0, _⟩ =>
    show win0_4.index ⟨(i 0).val / 256, ht⟩ (0 : Fin 2) * 256 ≤ (i 0).val
      ∧ (i 0).val < win0_4.index ⟨(i 0).val / 256, ht⟩ (0 : Fin 2) * 256 + 256
    rw [e8]; show (i 0).val / 256 * 256 ≤ (i 0).val ∧ (i 0).val < (i 0).val / 256 * 256 + 256; omega
  | ⟨1, _⟩ =>
    show win0_4.index ⟨(i 0).val / 256, ht⟩ (1 : Fin 2) * 512 ≤ (i 1).val
      ∧ (i 1).val < win0_4.index ⟨(i 0).val / 256, ht⟩ (1 : Fin 2) * 512 + 512
    rw [e9]; omega

/-- After the run the result array holds the whole-array function of the arguments. -/
theorem final (c : Dev nD) : (dats m 0 c).arrAt 4 cfg0.N = Gm m c :=
  (dats m 0 c).arrAt_eq_of_cover 4 (Gm m c) (fun t _ => flushed_eq m c t) cover

/-- The kernel's run, read: the result array at the whole-array function, the arguments unchanged. -/
theorem run : θ_run defs (onTc (τ := τ) (main (F := Ideal))) ⟨m, fun _ => 0, ρ⟩ fun r => ∀ c : Dev nD,
      r.2.mem ((c : Thread nD τ).loc main_v1) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KerFinal

end
-- ==== Proof.RefRead.lean ====
/-
  The reference's result at an index is the reference's element function of the rows that index selects.
-/
import proofs.«108052_j62148176773493_1_alg».proof.Proof.Gen.ReferenceIdeal.Read
import proofs.«108052_j62148176773493_1_alg».proof.Proof.Elem
import Idealize.ShloMosaic.Lib.ValueIdx

noncomputable section

open scoped BigOperators

namespace Cert.ReferenceIdeal.RefRead

open Cert.ReferenceIdeal Cert.ReferenceIdeal.Gen Idealize.ShloMosaic Idealize.ShloMosaic.ValueIdx

open Cert.ReferenceIdeal.Read Cert.Elem

/-! ## The rows an index selects -/

/-- Row `b` of a two-dimensional array with 64 columns. -/
abbrev row {n : Nat} (x : (⟨2, ![n, 64]⟩ : Shape).Idx → EReal) (b : Fin n) : Fin 64 → EReal :=
  fun k => x (ix2 b k)

/-- The word of the float 0. -/
abbrev w0 : EReal := Ideal.ofBits .f32 0x00000000#32
/-- The word of the float 1. -/
abbrev w1 : EReal := Ideal.ofBits .f32 0x3F800000#32

section Stages

variable (x0 : (⟨S2048x64, .f32⟩ : BufTy).Contents (Elt Ideal))
  (x1 x2 : (⟨S512x64, .f32⟩ : BufTy).Contents (Elt Ideal)) (x3 : (⟨S512, .f32⟩ : BufTy).Contents (Elt Ideal))
  (b : Fin 2048) (u : Fin 512) (k : Fin 64)

/-! ## Index equations: the composed index functions at literal coordinates -/

theorem lidx_v2 : lidx_main_v2 (ix2 b u) k = ix2 b k :=
  funext fun a => by match a with | ⟨0, _⟩ => rfl | ⟨1, _⟩ => rfl
theorem ridx_v2 : ridx_main_v2 (ix2 b u) k = ix2 u k :=
  funext fun a => by match a with | ⟨0, _⟩ => rfl | ⟨1, _⟩ => rfl
theorem idx_call0_v1 : idx_main_call0_v1 (ix1 u) k = ix2 u k :=
  funext fun a => by match a with | ⟨0, _⟩ => rfl | ⟨1, _⟩ => rfl
theorem idx_v4 : idx_main_v4 (ix1 u) k = ix2 u k :=
  funext fun a => by match a with | ⟨0, _⟩ => rfl | ⟨1, _⟩ => rfl
theorem idx_v19 : idx_main_v19 (ix2 b u) k = ix3 b u k :=
  funext fun a => by match a with | ⟨0, _⟩ => rfl | ⟨1, _⟩ => rfl | ⟨2, _⟩ => rfl
theorem idx_call1_v1 : idx_main_call1_v1 (ix2 b u) k = ix3 b u k :=
  funext fun a => by match a with | ⟨0, _⟩ => rfl | ⟨1, _⟩ => rfl | ⟨2, _⟩ => rfl
theorem idx_v47 : idx_main_v47 (ix2 b u) k = ix3 b u k :=
  funext fun a => by match a with | ⟨0, _⟩ => rfl | ⟨1, _⟩ => rfl | ⟨2, _⟩ => rfl
/-- A broadcast of a `[512]` array to `[1, 512]` and then `[2048, 512]` reads entry `u`. -/
theorem idx_bc_u : idx_main_v5 (idx_main_v6 (ix2 b u)) = ix1 u :=
  funext fun a => by match a with | ⟨0, _⟩ => rfl
/-- A broadcast of a `[2048, 512]` array to `[2048, 512, 1]` and then `[2048, 512, 64]` reads entry `(b, u)`. -/
theorem idx_bc_bu : idx_main_v11 (idx_main_v13 (ix3 b u k)) = ix2 b u :=
  funext fun a => by match a with | ⟨0, _⟩ => rfl | ⟨1, _⟩ => rfl
/-- A broadcast of a `[512, 64]` array to `[1, 512, 64]` and then `[2048, 512, 64]` reads entry `(u, k)`. -/
theorem idx_bc_uk : idx_main_v12 (idx_main_v14 (ix3 b u k)) = ix2 u k :=
  funext fun a => by match a with | ⟨0, _⟩ => rfl | ⟨1, _⟩ => rfl
/-- A broadcast of a `[2048, 64]` array to `[2048, 1, 64]` and then `[2048, 512, 64]` reads entry `(b, k)`. -/
theorem idx_bc_bk : idx_main_v43 (idx_main_v44 (ix3 b u k)) = ix2 b k :=
  funext fun a => by match a with | ⟨0, _⟩ => rfl | ⟨1, _⟩ => rfl

/-! ## The stages, in the reference's order -/

/-- `v0 = q2 - q1`: the segment's direction. -/
theorem v0_at : val_main_v0 (F := Ideal) x1 x2 (ix2 u k) = dif (row x1 u) (row x2 u) k := rfl

/-- `v1`: the segment's length. -/
theorem v1_at : val_main_v1 (F := Ideal) x1 x2 (ix1 u)
    = Ideal.sqrt (w0 + dot (dif (row x1 u) (row x2 u)) (dif (row x1 u) (row x2 u))) := by
  rw [val_main_v1_apply, val_main_call0_v1_apply]
  have h : ∀ k : Fin 64, val_main_call0_v0 (F := Ideal) x1 x2 (idx_main_call0_v1 (ix1 u) k)
      = dif (row x1 u) (row x2 u) k * dif (row x1 u) (row x2 u) k := fun k => by
    rw [idx_call0_v1]; rfl
  rw [Finset.sum_congr rfl (fun k _ => h k)]
  rfl

/-- `v2 = ⟨x, q2 - q1⟩`. -/
theorem v2_at : val_main_v2 (F := Ideal) x0 x1 x2 (ix2 b u) = dot (row x0 b) (dif (row x1 u) (row x2 u)) := by
  rw [val_main_v2_apply]
  exact Finset.sum_congr rfl (fun k _ => by rw [lidx_v2, ridx_v2]; rfl)

/-- `v4 = 0 + ⟨q1, q2 - q1⟩`. -/
theorem v4_at : val_main_v4 (F := Ideal) x1 x2 (ix1 u) = w0 + dot (row x1 u) (dif (row x1 u) (row x2 u)) := by
  rw [val_main_v4_apply]
  have h : ∀ k : Fin 64, val_main_v3 (F := Ideal) x1 x2 (idx_main_v4 (ix1 u) k)
      = row x1 u k * dif (row x1 u) (row x2 u) k := fun k => by
    rw [idx_v4]; rfl
  rw [Finset.sum_congr rfl (fun k _ => h k)]
  rfl

/-- `v6`: `v4` broadcast over the rows of `x`. -/
theorem v6_at : val_main_v6 (F := Ideal) x1 x2 (ix2 b u) = val_main_v4 (F := Ideal) x1 x2 (ix1 u) := by
  rw [val_main_v6_apply, val_main_v5_apply, idx_bc_u]

/-- `v7 = v2 - v4`: the projection coefficient's numerator. -/
theorem v7_at : val_main_v7 (F := Ideal) x0 x1 x2 (ix2 b u)
    = dot (row x0 b) (dif (row x1 u) (row x2 u)) - (w0 + dot (row x1 u) (dif (row x1 u) (row x2 u))) := by
  rw [val_main_v7_apply, v2_at, v6_at, v4_at]
  rfl

/-- `v9`: `v1` broadcast over the rows of `x`. -/
theorem v9_at : val_main_v9 (F := Ideal) x1 x2 (ix2 b u) = val_main_v1 (F := Ideal) x1 x2 (ix1 u) := by
  rw [val_main_v9_apply, val_main_v8_apply]
  exact congrArg _ (funext fun a => by match a with | ⟨0, _⟩ => rfl)

/-- `v10 = v7 / v1`: the projection coefficient. -/
theorem v10_at : val_main_v10 (F := Ideal) x0 x1 x2 (ix2 b u)
    = Ideal.div (dot (row x0 b) (dif (row x1 u) (row x2 u)) - (w0 + dot (row x1 u) (dif (row x1 u) (row x2 u))))
        (Ideal.sqrt (w0 + dot (dif (row x1 u) (row x2 u)) (dif (row x1 u) (row x2 u)))) := by
  rw [val_main_v10_apply, v7_at, v9_at, v1_at]
  rfl

/-- `v13`: `v10` broadcast along the 64 coordinates. -/
theorem v13_at : val_main_v13 (F := Ideal) x0 x1 x2 (ix3 b u k) = val_main_v10 (F := Ideal) x0 x1 x2 (ix2 b u) := by
  rw [val_main_v13_apply, val_main_v11_apply, idx_bc_bu]

/-- `v14`: the direction broadcast over the rows of `x`. -/
theorem v14_at : val_main_v14 (F := Ideal) x1 x2 (ix3 b u k) = dif (row x1 u) (row x2 u) k := by
  rw [val_main_v14_apply, val_main_v12_apply, idx_bc_uk]
  rfl

/-- `v15`: the projection vector. -/
theorem v15_at : val_main_v15 (F := Ideal) x0 x1 x2 (ix3 b u k) = refVec (row x0 b) (row x1 u) (row x2 u) k := by
  rw [val_main_v15_apply, v13_at, v14_at, v10_at]
  rfl

/-- `v17`: the direction broadcast over the rows of `x`, once more. -/
theorem v17_at : val_main_v17 (F := Ideal) x1 x2 (ix3 b u k) = dif (row x1 u) (row x2 u) k := by
  rw [val_main_v17_apply, val_main_v16_apply]
  exact congrArg (val_main_v0 (F := Ideal) x1 x2)
    (funext fun a => by match a with | ⟨0, _⟩ => rfl | ⟨1, _⟩ => rfl : idx_main_v16 (idx_main_v17 (ix3 b u k)) = ix2 u k)

/-- `v19 = 0 + ⟨v15, q2 - q1⟩`. -/
theorem v19_at : val_main_v19 (F := Ideal) x0 x1 x2 (ix2 b u)
    = w0 + dot (refVec (row x0 b) (row x1 u) (row x2 u)) (dif (row x1 u) (row x2 u)) := by
  rw [val_main_v19_apply]
  have h : ∀ k : Fin 64, val_main_v18 (F := Ideal) x0 x1 x2 (idx_main_v19 (ix2 b u) k)
      = refVec (row x0 b) (row x1 u) (row x2 u) k * dif (row x1 u) (row x2 u) k := fun k => by
    rw [idx_v19, val_main_v18_apply, v15_at, v17_at]; rfl
  rw [Finset.sum_congr rfl (fun k _ => h k)]
  rfl

/-- `v20`: the projection vector's norm. -/
theorem v20_at : val_main_v20 (F := Ideal) x0 x1 x2 (ix2 b u) = refNorm (row x0 b) (row x1 u) (row x2 u) := by
  rw [val_main_v20_apply, val_main_call1_v1_apply]
  have h : ∀ k : Fin 64, val_main_call1_v0 (F := Ideal) x0 x1 x2 (idx_main_call1_v1 (ix2 b u) k)
      = refVec (row x0 b) (row x1 u) (row x2 u) k * refVec (row x0 b) (row x1 u) (row x2 u) k := fun k => by
    rw [idx_call1_v1, val_main_call1_v0_apply, v15_at]; rfl
  rw [Finset.sum_congr rfl (fun k _ => h k)]
  rfl

/-- `v22`: `v1` broadcast over the rows of `x`, once more. -/
theorem v22_at : val_main_v22 (F := Ideal) x1 x2 (ix2 b u) = val_main_v1 (F := Ideal) x1 x2 (ix1 u) := by
  rw [val_main_v22_apply, val_main_v21_apply]
  exact congrArg _ (funext fun a => by match a with | ⟨0, _⟩ => rfl)

/-- `v23 = v20 / v1`. -/
theorem v23_at : val_main_v23 (F := Ideal) x0 x1 x2 (ix2 b u)
    = Ideal.div (refNorm (row x0 b) (row x1 u) (row x2 u))
        (Ideal.sqrt (w0 + dot (dif (row x1 u) (row x2 u)) (dif (row x1 u) (row x2 u)))) := by
  rw [val_main_v23_apply, v20_at, v22_at, v1_at]
  rfl

/-- `v24`: the float 0 everywhere. -/
theorem v24_at : val_main_v24 (F := Ideal) (ix2 b u) = w0 := by
  rw [val_main_v24_apply]; rfl

/-- `v25`: whether the projection vector points against the direction. -/
theorem v25_at : val_main_v25 (F := Ideal) x0 x1 x2 (ix2 b u)
    = Ideal.cmp .olt (w0 + dot (refVec (row x0 b) (row x1 u) (row x2 u)) (dif (row x1 u) (row x2 u))) w0 := by
  rw [val_main_v25_apply, v19_at, v24_at]
  rfl

/-- `v26`: the float 1 everywhere. -/
theorem v26_at : val_main_v26 (F := Ideal) (ix2 b u) = w1 := by
  rw [val_main_v26_apply]; rfl

/-- `v27`: whether the norm is below the segment's length. -/
theorem v27_at : val_main_v27 (F := Ideal) x0 x1 x2 (ix2 b u)
    = Ideal.cmp .olt (Ideal.div (refNorm (row x0 b) (row x1 u) (row x2 u))
        (Ideal.sqrt (w0 + dot (dif (row x1 u) (row x2 u)) (dif (row x1 u) (row x2 u))))) w1 := by
  rw [val_main_v27_apply, v23_at, v26_at]
  rfl

/-- The float 0 everywhere, inside the first selection. -/
theorem call2_v1_at : val_main_call2_v1 (F := Ideal) (ix2 b u) = w0 := by
  rw [val_main_call2_v1_apply]; rfl

/-- `v28`: the norm if it is below the segment's length, else 0. -/
theorem v28_at : val_main_v28 (F := Ideal) x0 x1 x2 (ix2 b u)
    = Scalar.select
        (Ideal.cmp .olt (Ideal.div (refNorm (row x0 b) (row x1 u) (row x2 u))
          (Ideal.sqrt (w0 + dot (dif (row x1 u) (row x2 u)) (dif (row x1 u) (row x2 u))))) w1)
        (refNorm (row x0 b) (row x1 u) (row x2 u)) w0 := by
  rw [val_main_v28_apply, v27_at, v20_at, call2_v1_at]

/-- The float 1 everywhere, inside the second selection. -/
theorem call3_v1_at : val_main_call3_v1 (F := Ideal) (ix2 b u) = w1 := by
  rw [val_main_call3_v1_apply]; rfl

/-- `v29`: the reference's weight. -/
theorem v29_at : val_main_v29 (F := Ideal) x0 x1 x2 (ix2 b u) = refW (row x0 b) (row x1 u) (row x2 u) := by
  rw [val_main_v29_apply, v25_at, call3_v1_at, v28_at]
  rfl

/-- `v32`: the weight broadcast along the 64 coordinates. -/
theorem v32_at : val_main_v32 (F := Ideal) x0 x1 x2 (ix3 b u k) = refW (row x0 b) (row x1 u) (row x2 u) := by
  rw [val_main_v32_apply, val_main_v30_apply]
  exact (congrArg (val_main_v29 (F := Ideal) x0 x1 x2)
    (funext fun a => by match a with | ⟨0, _⟩ => rfl | ⟨1, _⟩ => rfl :
      idx_main_v30 (idx_main_v32 (ix3 b u k)) = ix2 b u)).trans (v29_at x0 x1 x2 b u)

/-- `v33`: `q1` broadcast over the rows of `x`. -/
theorem v33_at : val_main_v33 (F := Ideal) x1 (ix3 b u k) = row x1 u k := by
  rw [val_main_v33_apply, val_main_v31_apply]
  exact congrArg x1
    (funext fun a => by match a with | ⟨0, _⟩ => rfl | ⟨1, _⟩ => rfl :
      idx_main_v31 (idx_main_v33 (ix3 b u k)) = ix2 u k)

/-- `v34 = l · q1`. -/
theorem v34_at : val_main_v34 (F := Ideal) x0 x1 x2 (ix3 b u k)
    = refW (row x0 b) (row x1 u) (row x2 u) * row x1 u k := by
  rw [val_main_v34_apply, v32_at, v33_at]
  rfl

/-- `v35`: the float 1 everywhere. -/
theorem v35_at : val_main_v35 (F := Ideal) (ix2 b u) = w1 := by
  rw [val_main_v35_apply]; rfl

/-- `v36 = 1 - l`. -/
theorem v36_at : val_main_v36 (F := Ideal) x0 x1 x2 (ix2 b u) = w1 - refW (row x0 b) (row x1 u) (row x2 u) := by
  rw [val_main_v36_apply, v35_at, v29_at]
  rfl

/-- `v39`: `1 - l` broadcast along the 64 coordinates. -/
theorem v39_at : val_main_v39 (F := Ideal) x0 x1 x2 (ix3 b u k)
    = w1 - refW (row x0 b) (row x1 u) (row x2 u) := by
  rw [val_main_v39_apply, val_main_v37_apply]
  exact (congrArg (val_main_v36 (F := Ideal) x0 x1 x2)
    (funext fun a => by match a with | ⟨0, _⟩ => rfl | ⟨1, _⟩ => rfl :
      idx_main_v37 (idx_main_v39 (ix3 b u k)) = ix2 b u)).trans (v36_at x0 x1 x2 b u)

/-- `v40`: `q2` broadcast over the rows of `x`. -/
theorem v40_at : val_main_v40 (F := Ideal) x2 (ix3 b u k) = row x2 u k := by
  rw [val_main_v40_apply, val_main_v38_apply]
  exact congrArg x2
    (funext fun a => by match a with | ⟨0, _⟩ => rfl | ⟨1, _⟩ => rfl :
      idx_main_v38 (idx_main_v40 (ix3 b u k)) = ix2 u k)

/-- `v42 = l · q1 + (1 - l) · q2`: the point of the segment. -/
theorem v42_at : val_main_v42 (F := Ideal) x0 x1 x2 (ix3 b u k)
    = refW (row x0 b) (row x1 u) (row x2 u) * row x1 u k
      + (w1 - refW (row x0 b) (row x1 u) (row x2 u)) * row x2 u k := by
  rw [val_main_v42_apply, v34_at, val_main_v41_apply, v39_at, v40_at]
  rfl

/-- `v44`: `x` broadcast over the segments. -/
theorem v44_at : val_main_v44 (F := Ideal) x0 (ix3 b u k) = row x0 b k := by
  rw [val_main_v44_apply, val_main_v43_apply, idx_bc_bk]

/-- `v45`: the residual. -/
theorem v45_at : val_main_v45 (F := Ideal) x0 x1 x2 (ix3 b u k) = refRes (row x0 b) (row x1 u) (row x2 u) k := by
  rw [val_main_v45_apply, v44_at, v42_at]
  rfl

/-- `v47 = 0 + ‖residual‖²`. -/
theorem v47_at : val_main_v47 (F := Ideal) x0 x1 x2 (ix2 b u)
    = w0 + dot (refRes (row x0 b) (row x1 u) (row x2 u)) (refRes (row x0 b) (row x1 u) (row x2 u)) := by
  rw [val_main_v47_apply]
  have h : ∀ k : Fin 64, val_main_v46 (F := Ideal) x0 x1 x2 (idx_main_v47 (ix2 b u) k)
      = refRes (row x0 b) (row x1 u) (row x2 u) k * refRes (row x0 b) (row x1 u) (row x2 u) k := fun k => by
    rw [idx_v47, val_main_v46_apply, v45_at]; rfl
  rw [Finset.sum_congr rfl (fun k _ => h k)]
  rfl

/-- `v53 = 64 · r²`, broadcast over the rows of `x`. -/
theorem v53_at : val_main_v53 (F := Ideal) x3 (ix2 b u)
    = Ideal.ofBits .f32 0x42800000#32 * (x3 (ix1 u) * x3 (ix1 u)) := by
  rw [val_main_v53_apply, val_main_v52_apply]
  refine (congrArg (val_main_v51 (F := Ideal) x3)
    (funext fun a => by match a with | ⟨0, _⟩ => rfl : idx_main_v52 (idx_main_v53 (ix2 b u)) = ix1 u)).trans ?_
  rw [val_main_v51_apply, val_main_v50_apply]
  rfl

/-- `v55`: the reference's element. -/
theorem v55_at : val_main_v55 (F := Ideal) x0 x1 x2 x3 (ix2 b u)
    = Cert.Elem.ref (row x0 b) (row x1 u) (row x2 u) (x3 (ix1 u)) := by
  rw [val_main_v55_apply, val_main_v54_apply, val_main_v48_apply, v47_at, v53_at]
  rfl

end Stages

/-- Entry `(b, u)` of the reference's result: the reference's element of row `b` of `x`, rows `u` of `q1` and
    `q2`, and entry `u` of `r`. -/
theorem result_apply (x0 : (⟨S2048x64, .f32⟩ : BufTy).Contents (Elt Ideal))
    (x1 x2 : (⟨S512x64, .f32⟩ : BufTy).Contents (Elt Ideal)) (x3 : (⟨S512, .f32⟩ : BufTy).Contents (Elt Ideal))
    (b : Fin 2048) (u : Fin 512) :
    Cert.ReferenceIdeal.Read.val_main_v55 (F := Ideal) x0 x1 x2 x3 (ix2 b u)
      = Cert.Elem.ref (fun k => x0 (ix2 b k)) (fun k => x1 (ix2 u k)) (fun k => x2 (ix2 u k)) (x3 (ix1 u)) :=
  v55_at x0 x1 x2 x3 b u

end Cert.ReferenceIdeal.RefRead

end
-- ==== Proof.Finite.lean ====
/-
  Under the precondition every entry of the four argument arrays is a real number.
-/
import proofs.«108052_j62148176773493_1_alg».proof.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The word `0x7F800000` is `+∞`. -/
theorem ofBits_inf : Ideal.ofBits .f32 0x7F800000#32 = (⊤ : EReal) := by
  simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- One array of the precondition: if the conjunction over all entries of `|x| < +∞` is 1,
    every entry of `x` is a real number. The result shape has rank 0, hence a single index. -/
theorem real_of_all {S : Shape} {axes : List (Fin S.rank)} (x : FVec Ideal S .f32)
    (hb : S_.BroadcastsInDim S (![] : Fin 0 → Fin S.rank)) (hr : S.ReducesTo axes S_) (hu : 0 < S_.numel)
    (init : IVec S_ 1) (j : S_.Idx)
    (e : Host.reduce IntOp.andi
        (cmpf .olt (Host.absf x) (broadcastInDim S ![] hb (constant S_ .f32 0x7F800000#32))) init hr hu j = 1#1) :
    ∀ i, ∃ r : ℝ, x i = (r : EReal) := by
  intro i
  haveI : Subsingleton S_.Idx := ⟨fun a b => funext fun d => d.elim0⟩
  have hi := Host.reduce_andi_all _ init hr hu j e i
  exact real_of_abs_lt_inf (x i) hi

/-- If the precondition's predicate is all ones on four arrays of extended reals, every entry of each is a real. -/
theorem real_of_pre [Cert.Pre_finite_inputs.Facts] (x0 : FVec Ideal S2048x64 .f32) (x1 x2 : FVec Ideal S512x64 .f32)
    (x3 : FVec Ideal S512 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all x0 _ _ _ _ _ h0', real_of_all x1 _ _ _ _ _ h1, real_of_all x2 _ _ _ _ _ h2,
    real_of_all x3 _ _ _ _ _ h3⟩

end Cert.Finite

end
-- ==== Proof.lean ====
/-
  The proof of `Cert.Claim`: the three frames, the (empty) idealization ledger, and the equality of the two
  idealized programs' results on finite inputs.

  The result, entry `(b, u)` of a [2048, 512] array, is `exp (-‖x_b - c‖² / (64 · r_u²))` where `c` is a point of the
  segment between rows `u` of `q1` and `q2`, chosen from the projection of `x_b - q1_u` on the segment's direction.
  The kernel expands the squared distance into inner products (two matrix products and a few row sums) and
  takes the weight of the segment point from the projection coefficient directly; the reference forms the
  projection vector, reads the weight off its inner product with the direction and off its norm, and sums the
  squared residual coordinate by coordinate.
  * The kernel's run leaves the whole-array function `Elem.G` of the arguments in the result array: each of the 8
    grid points writes one block of 256 rows of it, and the blocks tile the array.
  * The reference's run leaves, at `(b, u)`, the element function `Elem.ref` of the same rows.
  * Under the precondition every entry of the arguments is a real number, and on real rows `Elem.ref` is
    `Elem.ker`: a polynomial identity once the two weights are seen to agree, the degenerate segment
    (`q1_u = q2_u`, where the reference divides by zero) included, since there both weights are 0.
-/
import proofs.«108052_j62148176773493_1_alg».proof.Defs
import proofs.«108052_j62148176773493_1_alg».proof.Proof.Gen.Kernel
import proofs.«108052_j62148176773493_1_alg».proof.Proof.Gen.Kernel.Skeleton
import proofs.«108052_j62148176773493_1_alg».proof.Proof.Gen.Kernel.Launch
import proofs.«108052_j62148176773493_1_alg».proof.Proof.Gen.Kernel.Points
import proofs.«108052_j62148176773493_1_alg».proof.Proof.Gen.Kernel.Frame
import proofs.«108052_j62148176773493_1_alg».proof.Proof.Gen.KernelIdeal
import proofs.«108052_j62148176773493_1_alg».proof.Proof.Gen.KernelIdeal.Skeleton
import proofs.«108052_j62148176773493_1_alg».proof.Proof.Gen.KernelIdeal.Launch
import proofs.«108052_j62148176773493_1_alg».proof.Proof.Gen.KernelIdeal.Points
import proofs.«108052_j62148176773493_1_alg».proof.Proof.Gen.KernelIdeal.Frame
import proofs.«108052_j62148176773493_1_alg».proof.Proof.Gen.ReferenceIdeal
import proofs.«108052_j62148176773493_1_alg».proof.Proof.Gen.Pre_finite_inputs
import proofs.«108052_j62148176773493_1_alg».proof.Proof.Gen.KernelIdeal.Value
import proofs.«108052_j62148176773493_1_alg».proof.Proof.Gen.ReferenceIdeal.Run
import proofs.«108052_j62148176773493_1_alg».proof.Proof.Gen.ReferenceIdeal.Read
import proofs.«108052_j62148176773493_1_alg».proof.Proof.Elem
import proofs.«108052_j62148176773493_1_alg».proof.Proof.ElemLaw
import proofs.«108052_j62148176773493_1_alg».proof.Proof.KerRead
import proofs.«108052_j62148176773493_1_alg».proof.Proof.KerFinal
import proofs.«108052_j62148176773493_1_alg».proof.Proof.RefRead
import proofs.«108052_j62148176773493_1_alg».proof.Proof.Finite
import Idealize.ShloMosaic.Adequacy
import Idealize.ShloMosaic.Init

noncomputable section

namespace Cert.Proof

open Idealize.ShloMosaic Idealize.SL.Sem Idealize.ShloMosaic.ValueIdx

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On arrays of real numbers the reference's result is the kernel's whole-array function, entry by entry. -/
theorem result_eq (x0 : (⟨2, ![2048, 64]⟩ : Shape).Idx → EReal) (x1 x2 : (⟨2, ![512, 64]⟩ : Shape).Idx → EReal)
    (x3 : (⟨1, ![512]⟩ : Shape).Idx → EReal)
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    Cert.ReferenceIdeal.Read.val_main_v55 (F := Ideal) x0 x1 x2 x3 = Cert.Elem.G x0 x1 x2 x3 := by
  choose X0 hX0 using h0
  choose X1 hX1 using h1
  choose X2 hX2 using h2
  choose X3 hX3 using h3
  funext i
  obtain ⟨b, u, rfl⟩ : ∃ (b : Fin 2048) (u : Fin 512), i = ix2 b u := ⟨i 0, i 1, eq_ix2 i⟩
  rw [Cert.ReferenceIdeal.RefRead.result_apply]
  show _ = Cert.Elem.ker (fun k => x0 (ix2 b k)) (fun k => x1 (ix2 u k)) (fun k => x2 (ix2 u k)) (x3 (ix1 u))
  have r0 : (fun k : Fin 64 => x0 (ix2 b k)) = fun k => ((X0 (ix2 b k) : ℝ) : EReal) := funext fun k => hX0 _
  have r1 : (fun k : Fin 64 => x1 (ix2 u k)) = fun k => ((X1 (ix2 u k) : ℝ) : EReal) := funext fun k => hX1 _
  have r2 : (fun k : Fin 64 => x2 (ix2 u k)) = fun k => ((X2 (ix2 u k) : ℝ) : EReal) := funext fun k => hX2 _
  rw [r0, r1, r2, hX3 (ix1 u)]
  exact Cert.Elem.ref_eq_ker _ _ _ _

/-- From memories agreeing on the arguments, both idealized programs end with the same result array: the
    whole-array function of the (finite) arguments. -/
theorem algebraic : Cert.algebraic_KernelIdeal_ReferenceIdeal := by
  intro m ρ m' ρ' hpre hagree
  refine ⟨fun c => Cert.KernelIdeal.KerFinal.Gm m c, Cert.KernelIdeal.KerFinal.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3⟩ := Cert.Finite.real_of_pre _ _ _ _ (hpre c)
  rw [Cert.ReferenceIdeal.Read.val_main_v55_eq, (hagree c).1, (hagree c).2.1, (hagree c).2.2.1, (hagree c).2.2.2]
  exact result_eq _ _ _ _ f0 f1 f2 f3

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
